-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S16384x2048 : Shape := ⟨2, ![16384, 2048]⟩
abbrev S16384 : Shape := ⟨1, ![16384]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S512x2048 .f32) (main_arg1 : FVec F S16384x2048 .f32) (main_arg2 : IVec S16384 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S512x2048 : Shape := ⟨2, ![512, 2048]⟩
abbrev S16384x2048 : Shape := ⟨2, ![16384, 2048]⟩
abbrev S16384 : Shape := ⟨1, ![16384]⟩
abbrev S512x1000 : Shape := ⟨2, ![512, 1000]⟩
abbrev S128x2048 : Shape := ⟨2, ![128, 2048]⟩
abbrev S1024x2048 : Shape := ⟨2, ![1024, 2048]⟩
abbrev S1024 : Shape := ⟨1, ![1024]⟩
abbrev S128x1000 : Shape := ⟨2, ![128, 1000]⟩
abbrev S1024x1 : Shape := ⟨2, ![1024, 1]⟩
abbrev S128 : Shape := ⟨1, ![128]⟩
abbrev S128x1 : Shape := ⟨2, ![128, 1]⟩
abbrev S128x1024 : Shape := ⟨2, ![128, 1024]⟩
abbrev S1024x1000 : Shape := ⟨2, ![1024, 1000]⟩

abbrev nBuf : Space → Nat
  | .hbm => 4
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S16384x2048, .f32⟩
  | .hbm, ⟨2, _⟩ => ⟨S16384, .i32⟩
  | .hbm, ⟨3, _⟩ => ⟨S512x1000, .f32⟩
  | .local _ .vmem, ⟨0, _⟩ => ⟨S128x2048, .f32⟩
  | .local _ .vmem, ⟨1, _⟩ => ⟨S128x2048, .f32⟩
  | .local _ .vmem, ⟨2, _⟩ => ⟨S1024x2048, .f32⟩
  | .local _ .vmem, ⟨3, _⟩ => ⟨S1024x2048, .f32⟩
  | .local _ .vmem, ⟨4, _⟩ => ⟨S1024, .i32⟩
  | .local _ .vmem, ⟨5, _⟩ => ⟨S1024, .i32⟩
  | .local _ .vmem, ⟨6, _⟩ => ⟨S128x1000, .f32⟩
  | .local _ .vmem, ⟨7, _⟩ => ⟨S128x1000, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x1000_S128x1000_0_0 : ∀ a, (![0, 0] : Fin 2 → Nat) a + S128x1000.size a ≤ S128x1000.size a
  h_S128x1000 : 0 < S128x1000.numel
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x1024 : S128x1.Broadcasts S128x1024
  inb_S1024_S1024_0 : ∀ a, (![0] : Fin 1 → Nat) a + S1024.size a ≤ S1024.size a
  h_S1024 : 0 < S1024.numel
  iota_S1024x1000_d1_w32 : S1024x1000.Iotas .tc 32 [1]
  broadcasts_S1024x1_S1024x1000 : S1024x1.Broadcasts S1024x1000
  natLt_1_32 : 1 < 32
  shapeCasts_S128x1000_S128x1000 : S128x1000.ShapeCasts S128x1000
  dot_S128x2048_S1024x2048_S128x1024_1_1_0_0_n_n_wf : DotDims.WF S128x2048 S1024x2048 S128x1024 [1] [1] [0] [0] [] []
  dot_S128x1024_S1024x1000_S128x1000_1_0_0_1_n_n_wf : DotDims.WF S128x1024 S1024x1000 S128x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S512x2048.size a
  hwx0_0 : ∀ i : grid0.Coords, EltTy.bits .f32 = 32 ∨ (Rect.block (s := S512x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .i32 = 32 ∨ (Rect.block (s := S16384) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1000.size a ≤ S512x1000.size a
  hwx0_3 : ∀ i : grid0.Coords, EltTy.bits .f32 = 32 ∨ (Rect.block (s := S512x1000) S128x1000.size (cc0_transform_3 i) (hinb0_3 i)).WholeWords (EltTy.packing .f32)

variable [Facts₀]

def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf
def dot_S128x1024_S1024x1000_S128x1000_1_0_0_1_n_n : DotDims S128x1024 S1024x1000 S128x1000 where
  lhsContracting := [1]
  rhsContracting := [0]
  lhsNonContracting := [0]
  rhsNonContracting := [1]
  lhsBatch := []
  rhsBatch := []
  wf := dot_S128x1024_S1024x1000_S128x1000_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S512x16384 : Shape := ⟨2, ![512, 16384]⟩
abbrev S512 : Shape := ⟨1, ![512]⟩
abbrev S512x1 : Shape := ⟨2, ![512, 1]⟩
abbrev S1x1000 : Shape := ⟨2, ![1, 1000]⟩
abbrev S16384x1000 : Shape := ⟨2, ![16384, 1000]⟩
abbrev S512x1000 : Shape := ⟨2, ![512, 1000]⟩

abbrev nBuf : Space → Nat
  | .hbm => 33
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S16384x2048, .f32⟩
  | .hbm, ⟨2, _⟩ => ⟨S16384, .i32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x2048, .f32⟩
  | .hbm, ⟨12, _⟩ => ⟨S16384x2048, .f32⟩
  | .hbm, ⟨13, _⟩ => ⟨S512x16384, .f32⟩
  | .hbm, ⟨14, _⟩ => ⟨S512x2048, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x16384, .f32⟩
  | .hbm, ⟨23, _⟩ => ⟨S512x16384, .f32⟩
  | .hbm, ⟨24, _⟩ => ⟨S512x16384, .f32⟩
  | .hbm, ⟨25, _⟩ => ⟨S512x16384, .f32⟩
  | .hbm, ⟨26, _⟩ => ⟨S16384x1, .i32⟩
  | .hbm, ⟨27, _⟩ => ⟨S1x1000, .i32⟩
  | .hbm, ⟨28, _⟩ => ⟨S16384x1000, .i32⟩
  | .hbm, ⟨29, _⟩ => ⟨S16384x1000, .i32⟩
  | .hbm, ⟨30, _⟩ => ⟨S16384x1000, .i1⟩
  | .hbm, ⟨31, _⟩ => ⟨S16384x1000, .f32⟩
  | .hbm, ⟨32, _⟩ => ⟨S512x1000, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  reducesTo_S512x2048_S512_d1 : S512x2048.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  dot_S512x2048_S16384x2048_S512x16384_1_1_0_0_n_n_wf : DotDims.WF S512x2048 S16384x2048 S512x16384 [1] [1] [0] [0] [] []
  dot_S512x16384_S16384x1000_S512x1000_1_0_0_1_n_n_wf : DotDims.WF S512x16384 S16384x1000 S512x1000 [1] [0] [0] [1] [] []

variable [Facts₀]

def dot_S512x2048_S16384x2048_S512x16384_1_1_0_0_n_n : DotDims S512x2048 S16384x2048 S512x16384 where
  lhsContracting := [1]
  rhsContracting := [1]
  lhsNonContracting := [0]
  rhsNonContracting := [0]
  lhsBatch := []
  rhsBatch := []
  wf := dot_S512x2048_S16384x2048_S512x16384_1_1_0_0_n_n_wf
def dot_S512x16384_S16384x1000_S512x1000_1_0_0_1_n_n : DotDims S512x16384 S16384x1000 S512x1000 where
  lhsContracting := [1]
  rhsContracting := [0]
  lhsNonContracting := [0]
  rhsNonContracting := [1]
  lhsBatch := []
  rhsBatch := []
  wf := dot_S512x16384_S16384x1000_S512x1000_1_0_0_1_n_n_wf

class Facts : Prop extends Facts₀ where

variable [Facts]
-- ==== Proof.Cosine.lean ====
/-
  The mathematics both programs compute, on rows. For a query row `x` and a support row `s` (each `D = 2048` entries):
  the norm of a row plus a small stabiliser `ε`; the support row scaled to (nearly) unit length; the dot product `o` of
  the query with that unit row; and the score `|o| · o / ‖x‖`, which one program writes `(|o| · o) / n` and the other
  `(|o| / n) · o`. A quotient by `n ≠ 0` is the product with `n⁻¹`, and products of extended reals commute and
  associate, so the two agree as soon as `n ≠ 0` — and `n = √y + ε` is never zero, because a square root here is either
  the junk value `⊥` (then `n = ⊥`) or non-negative (then `n ≥ ε > 0`). No finiteness of the inputs is used.
  A label's one-hot entry at class `q` is `1` when the label's word is `q`'s and `0` otherwise, whichever way the one
  comparison bit is widened to a number. The final result sums score × one-hot over all `S = 16384` support rows; taken
  sixteen tiles of `1024` at a time it is the same sum, regrouped.
-/
import Idealize.ShloMosaic.PureOps.Ideal
import Idealize.ShloMosaic.PureOps.Ideal.Laws
import Mathlib.Algebra.BigOperators.Fin
import Mathlib.Logic.Equiv.Fin.Basic

noncomputable section

open scoped BigOperators

namespace Cert.Cosine

open Idealize.ShloMosaic

/-- The stabiliser both programs add to a norm: the single-precision word nearest `10⁻¹²`, read exactly. -/
def eps : EReal := Ideal.ofBits .f32 0x2B8CBCCC#32

/-- It is a positive real: `(2²³ + 834764) · 2⁻⁶³`. -/
theorem eps_pos : 0 < eps := by
  unfold eps
  simp [Ideal.ofBits, Ideal.ieee, -EReal.coe_mul]

/-- A square root of an extended real is the junk value `⊥` (below zero) or non-negative. -/
theorem sqrt_bot_or_nonneg (y : EReal) : Ideal.sqrt y = ⊥ ∨ 0 ≤ Ideal.sqrt y := by
  induction y using EReal.rec with
  | bot => exact Or.inl rfl
  | top => exact Or.inr le_top
  | coe r =>
    rw [Ideal.sqrt_coe]
    split
    · exact Or.inl rfl
    · exact Or.inr (EReal.coe_nonneg.mpr (Real.sqrt_nonneg r))

/-- A row's norm plus the stabiliser. -/
def nrm (r : Fin 2048 → EReal) : EReal := Ideal.sqrt (∑ d, r d * r d) + eps

/-- It is never zero: `⊥` when the root is junk, at least `ε` otherwise. -/
theorem nrm_ne_zero (r : Fin 2048 → EReal) : nrm r ≠ 0 := by
  unfold nrm
  rcases sqrt_bot_or_nonneg (∑ d, r d * r d) with h | h
  · rw [h, EReal.bot_add]; exact EReal.bot_ne_zero
  · exact (lt_of_lt_of_le eps_pos (le_add_of_nonneg_left h)).ne'

/-- The dot product of a query row with a support row scaled by its stabilised norm. -/
def cosdot (x s : Fin 2048 → EReal) : EReal := ∑ d, x d * Ideal.div (s d) (nrm s)

/-- The score with the quotient taken last: `(|o| · o) / ‖x‖`. -/
def scoreLate (x s : Fin 2048 → EReal) : EReal :=
  Ideal.div (max (cosdot x s) (-cosdot x s) * cosdot x s) (nrm x)

/-- The score with the quotient taken first: `(|o| / ‖x‖) · o`. -/
def scoreEarly (x s : Fin 2048 → EReal) : EReal :=
  Ideal.div (max (cosdot x s) (-cosdot x s)) (nrm x) * cosdot x s

/-- Off zero a quotient is the product with the inverse, so a factor moves across it. -/
theorem div_mul_right_comm (a b : EReal) {n : EReal} (hn : n ≠ 0) : Ideal.div (a * b) n = Ideal.div a n * b := by
  unfold Ideal.div
  rw [if_neg hn, if_neg hn]
  exact mul_right_comm a b n⁻¹

/-- The two scores are one. -/
theorem scoreLate_eq_scoreEarly (x s : Fin 2048 → EReal) : scoreLate x s = scoreEarly x s :=
  div_mul_right_comm _ _ (nrm_ne_zero x)

/-- A label's one-hot entry at class `q`. -/
def hot (label : BitVec 32) (q : Fin 1000) : EReal := if label = BitVec.ofNat 32 q.val then 1 else 0

/-- The comparison bit "class `q` is the label", widened to a word and read as a signed integer, is the one-hot entry. -/
theorem hot_of_signed (label : BitVec 32) (q : Fin 1000) :
    ((((IntOp.cmpi .eq (BitVec.ofNat 32 q.val) label).setWidth 32).toInt : ℝ) : EReal) = hot label q := by
  unfold hot IntOp.cmpi
  by_cases h : label = BitVec.ofNat 32 q.val
  · simp [h]
  · have hb : (BitVec.ofNat 32 q.val == label) = false := beq_eq_false_iff_ne.mpr fun e => h e.symm
    simp [h, hb]

/-- The comparison bit "the label is class `q`", read as an unsigned integer, is the one-hot entry. -/
theorem hot_of_unsigned (label : BitVec 32) (q : Fin 1000) :
    (((IntOp.cmpi .eq label (BitVec.ofNat 32 q.val)).toNat : ℝ) : EReal) = hot label q := by
  unfold hot IntOp.cmpi
  by_cases h : label = BitVec.ofNat 32 q.val
  · simp [h]
  · simp [h]

/-- Sixteen tiles of 1024 make the 16384 support rows: row `1024·j + k` is row `k` of tile `j`. -/
theorem sum_tiles {M : Type*} [AddCommMonoid M] (f : ℕ → M) :
    ∑ j ∈ Finset.range 16, ∑ k : Fin 1024, f (1024 * j + k.val) = ∑ t : Fin 16384, f t.val := by
  rw [← Fin.sum_univ_eq_sum_range (fun j => ∑ k : Fin 1024, f (1024 * j + k.val)) 16]
  rw [← Equiv.sum_comp (finProdFinEquiv : Fin 16 × Fin 1024 ≃ Fin 16384) (fun t => f t.val), Fintype.sum_prod_type]
  refine Finset.sum_congr rfl fun j _ => Finset.sum_congr rfl fun k _ => congrArg f ?_
  show 1024 * j.val + k.val = k.val + 1024 * j.val
  omega

end Cert.Cosine

end
-- ==== Proof.Spec.lean ====
/-
  The result, entry by entry: for query row `b` and class `c`, the sum over all 16384 support rows `t` of the score of
  query row `b` against support row `t` (quotient taken first, as the plain program writes it) times the one-hot entry
  of label `t` at class `c` — the kernel-weighted vote of the support labels for class `c`.
-/
import proofs.«142447_j87368224735692_1_alg».proof.Proof.Cosine
import Idealize.ShloMosaic.Lib.ValueIdx

noncomputable section

open scoped BigOperators

namespace Cert.Cosine

open Idealize.ShloMosaic Idealize.ShloMosaic.ValueIdx

/-- Entry `(b, c)` of the result, as a function of the query array, the support array and the labels. -/
def spec (x : (⟨2, ![512, 2048]⟩ : Shape).Idx → EReal) (sx : (⟨2, ![16384, 2048]⟩ : Shape).Idx → EReal)
    (sy : (⟨1, ![16384]⟩ : Shape).Idx → BitVec 32) (b : Fin 512) (c : Fin 1000) : EReal :=
  ∑ t : Fin 16384, scoreEarly (fun d => x (ix2 b d)) (fun d => sx (ix2 t d)) * hot (sy (ix1 t)) c

end Cert.Cosine

end
-- ==== Proof.RefIsSpec.lean ====
/-
  The plain program computes the specification. Its run is read one operation at a time: the stabilised norm column of
  the support array and of the query array (sum of squares along the features, root, plus `ε`), the support array
  divided row by row by its column, the product of the query array with it contracting the features, the score
  `(|o| / ‖x‖) · o`, the one-hot matrix of the labels, and the product of the scores with it contracting the support rows.
  At entry `(b, c)` this is the specification's sum, term by term.
-/
import proofs.«142447_j87368224735692_1_alg».proof.Proof.Gen.ReferenceIdeal.Read
import proofs.«142447_j87368224735692_1_alg».proof.Proof.Spec

noncomputable section

open scoped BigOperators

namespace Cert.ReferenceIdeal.RefValue

open Idealize.ShloMosaic Idealize.ShloMosaic.ValueIdx Cert.ReferenceIdeal Cert.ReferenceIdeal.Read Cert.Cosine

variable (x : (⟨S512x2048, .f32⟩ : BufTy).Contents (Elt Ideal)) (sx : (⟨S16384x2048, .f32⟩ : BufTy).Contents (Elt Ideal))
  (sy : (⟨S16384, .i32⟩ : BufTy).Contents (Elt Ideal))

/-- The support array's norm column at row `t`. -/
theorem norm_support (t : Fin 16384) (u : Fin 1) : val_main_v2 (F := Ideal) sx (ix2 t u) = nrm (fun d => sx (ix2 t d)) := by
  have e : ∀ k : Fin 2048, idx_main_call0_v1 (idx_main_call0_v2 (ix2 t u)) k = ix2 t k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, e]
  show Ideal.sqrt (Ideal.ofBits .f32 0x00000000#32 + ∑ k : Fin 2048, sx (ix2 t k) * sx (ix2 t k)) + eps = _
  rw [Ideal.ofBits_zero_f32, zero_add]
  rfl

/-- The query array's norm column at row `b`. -/
theorem norm_query (b : Fin 512) (u : Fin 1) : val_main_v8 (F := Ideal) x (ix2 b u) = nrm (fun d => x (ix2 b d)) := by
  have e : ∀ k : Fin 2048, idx_main_call1_v1 (idx_main_call1_v2 (ix2 b u)) k = ix2 b k := fun k =>
    funext fun a => Fin.ext (by match a with | ⟨0, _⟩ => rfl | ⟨1, _⟩ => rfl)
  rw [val_main_v8_apply, val_main_v6_apply, val_main_call1_v2_apply, val_main_call1_v1_apply, val_main_v7_apply,
    val_main_cst_0_apply, val_main_call1_cst_apply]
  simp only [val_main_call1_v0_apply, e]
  show Ideal.sqrt (Ideal.ofBits .f32 0x00000000#32 + ∑ k : Fin 2048, x (ix2 b k) * x (ix2 b k)) + eps = _
  rw [Ideal.ofBits_zero_f32, zero_add]
  rfl

/-- The unit support array at `(t, d)`. -/
theorem unit_support (t : Fin 16384) (d : Fin 2048) :
    val_main_v4 (F := Ideal) sx (ix2 t d) = Ideal.div (sx (ix2 t d)) (nrm (fun d' => sx (ix2 t d'))) := by
  have e : idx_main_v3 (ix2 t d) = ix2 t (0 : Fin 1) :=
    funext fun a => Fin.ext (by match a with | ⟨0, _⟩ => rfl | ⟨1, _⟩ => rfl)
  rw [val_main_v4_apply, val_main_v3_apply, e, norm_support]
  rfl

/-- The cosine product at `(b, t)`. -/
theorem cos_ref (b : Fin 512) (t : Fin 16384) :
    val_main_v5 (F := Ideal) x sx (ix2 b t) = cosdot (fun d => x (ix2 b d)) (fun d => sx (ix2 t d)) := by
  have el : ∀ k : Fin 2048, lidx_main_v5 (ix2 b t) k = ix2 b k := fun k =>
    funext fun a => Fin.ext (by match a with | ⟨0, _⟩ => rfl | ⟨1, _⟩ => rfl)
  have er : ∀ k : Fin 2048, ridx_main_v5 (ix2 b t) k = ix2 t k := fun k =>
    funext fun a => Fin.ext (by match a with | ⟨0, _⟩ => rfl | ⟨1, _⟩ => rfl)
  rw [val_main_v5_apply]
  unfold cosdot
  refine Finset.sum_congr rfl fun k _ => ?_
  rw [el, er, unit_support]

/-- The score at `(b, t)`, the quotient taken first. -/
theorem score_ref (b : Fin 512) (t : Fin 16384) :
    val_main_v12 (F := Ideal) x sx (ix2 b t) = scoreEarly (fun d => x (ix2 b d)) (fun d => sx (ix2 t d)) := by
  have e : idx_main_v10 (ix2 b t) = ix2 b (0 : Fin 1) :=
    funext fun a => Fin.ext (by match a with | ⟨0, _⟩ => rfl | ⟨1, _⟩ => rfl)
  rw [val_main_v12_apply, val_main_v11_apply, val_main_v9_apply, val_main_v10_apply, e, norm_query, cos_ref]
  rfl

/-- The one-hot matrix at `(t, c)`. -/
theorem hot_ref (t : Fin 16384) (c : Fin 1000) : val_main_v13 (F := Ideal) sy (ix2 t c) = hot (sy (ix1 t)) c := by
  have e0 : idx_main_call2_v0 (idx_main_call2_v2 (ix2 t c)) = ix1 t :=
    funext fun a => Fin.ext (by match a with | ⟨0, _⟩ => rfl)
  rw [val_main_v13_apply, val_main_call2_v4_apply, val_main_call2_v2_apply, val_main_call2_v0_apply, e0,
    val_main_call2_v3_apply, val_main_call2_v1_apply]
  exact hot_of_unsigned _ _

/-- THE PLAIN PROGRAM'S RESULT at entry `(b, c)` is the specification's. -/
theorem ref_apply (b : Fin 512) (c : Fin 1000) : val_main_v14 (F := Ideal) x sx sy (ix2 b c) = spec x sx sy b c := by
  have el : ∀ t : Fin 16384, lidx_main_v14 (ix2 b c) t = ix2 b t := fun t =>
    funext fun a => Fin.ext (by match a with | ⟨0, _⟩ => rfl | ⟨1, _⟩ => rfl)
  have er : ∀ t : Fin 16384, ridx_main_v14 (ix2 b c) t = ix2 t c := fun t =>
    funext fun a => Fin.ext (by match a with | ⟨0, _⟩ => rfl | ⟨1, _⟩ => rfl)
  rw [val_main_v14_apply]
  unfold spec
  refine Finset.sum_congr rfl fun t _ => ?_
  rw [el, er, score_ref, hot_ref]

end Cert.ReferenceIdeal.RefValue

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.Tile.lean ====
/-
  One tile's contribution, read at an entry. At a grid point the kernel holds a block of 128 query rows, a block of 1024
  support rows and their 1024 labels, and what the output block held before. Entry `(p, q)` of what it leaves is the old
  entry plus, over the tile's support rows `k`, the score of query row `p` against support row `k` times the one-hot
  entry of label `k` at class `q`. The score is `(|o| · o) / ‖x‖`, the quotient taken last. Each stage of the body is
  read at an index over an arbitrary block: the stabilised norm column of a block, the cosine product (a matrix product
  contracting the 2048 features of both operands), the score, the one-hot matrix, and the label aggregation (a matrix
  product contracting the tile's 1024 rows). A change of float format is the identity on extended reals.
-/
import proofs.«142447_j87368224735692_1_alg».proof.Proof.Gen.KernelIdeal.Skeleton
import proofs.«142447_j87368224735692_1_alg».proof.Proof.LibColumn
import proofs.«142447_j87368224735692_1_alg».proof.Proof.Cosine
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.LibColumn Cert.Cosine

/-! ## The stabilised norm column of a block -/

/-- The column `√(row sum of squares) + ε` of an `[a, 2048]` block, at row `r`, is that row's stabilised norm. -/
theorem normcol_apply {a : ℕ} (v : FVec Ideal ⟨2, ![a, 2048]⟩ .f32)
    (hr : (⟨2, ![a, 2048]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (r : Fin a) (u : Fin 1) :
    addf (sqrt (shapeCast ⟨2, ![a, 1]⟩ (multiReduction .add [1] ⟨1, ![a]⟩ (mulf v v) 0x00000000#32 hr hφ hacc) hc))
        (broadcast ⟨2, ![a, 1]⟩ (FloatOps.ofBits (F := Ideal) .f32 0x2B8CBCCC#32)) (ix2 r u)
      = nrm (fun d => v (ix2 r d)) := by
  show Ideal.sqrt (shapeCast ⟨2, ![a, 1]⟩ (multiReduction .add [1] ⟨1, ![a]⟩ (mulf v v) 0x00000000#32 hr hφ hacc) hc (ix2 r u))
      + eps = _
  rw [shapeCast_a_a1_apply, multiReduction_add_last_apply]
  rfl

/-! ## The cosine product: query block times unit support block, contracting the features -/

theorem lhs_cos_0 (i : S128x1024.Idx) (q : dot_S128x2048_S1024x2048_S128x1024_1_1_0_0_n_n.contr.Idx) :
    (dot_S128x2048_S1024x2048_S128x1024_1_1_0_0_n_n.lhsIdx i q 0).val = (i 0).val := by
  rfl
theorem lhs_cos_1 (i : S128x1024.Idx) (q : dot_S128x2048_S1024x2048_S128x1024_1_1_0_0_n_n.contr.Idx) :
    (dot_S128x2048_S1024x2048_S128x1024_1_1_0_0_n_n.lhsIdx i q 1).val = (q ⟨0, by decide⟩).val :=
  dot_S128x2048_S1024x2048_S128x1024_1_1_0_0_n_n.lhsIdx_val_of_single rfl i q
theorem rhs_cos_0 (i : S128x1024.Idx) (q : dot_S128x2048_S1024x2048_S128x1024_1_1_0_0_n_n.contr.Idx) :
    (dot_S128x2048_S1024x2048_S128x1024_1_1_0_0_n_n.rhsIdx i q 0).val = (i 1).val := by
  rfl
theorem rhs_cos_1 (i : S128x1024.Idx) (q : dot_S128x2048_S1024x2048_S128x1024_1_1_0_0_n_n.contr.Idx) :
    (dot_S128x2048_S1024x2048_S128x1024_1_1_0_0_n_n.rhsIdx i q 1).val = (q ⟨0, by decide⟩).val :=
  dot_S128x2048_S1024x2048_S128x1024_1_1_0_0_n_n.rhsIdx_val_of_single rfl i q

/-- Entry `(p, k)` of the product of a `[128, 2048]` block with a `[1024, 2048]` block, both contracted on their
    features, from a zero accumulator: the sum over the features of row `p` times row `k`. -/
theorem matmul_cos_apply (l : FVec Ideal S128x2048 .bf16) (r : FVec Ideal S1024x2048 .bf16) (p : Fin 128) (k : Fin 1024) :
    matmul dot_S128x2048_S1024x2048_S128x1024_1_1_0_0_n_n none l r (constant S128x1024 .f32 0x00000000#32) (ix2 p k)
      = ∑ d : Fin 2048, l (ix2 p d) * r (ix2 k d) := by
  simp only [matmul]
  rw [Ideal.matmul_constant_zero_apply, ← Equiv.sum_comp (contrEquiv1 dot_S128x2048_S1024x2048_S128x1024_1_1_0_0_n_n 2048 rfl rfl).symm]
  refine Finset.sum_congr rfl fun d _ => ?_
  have hk := contrEquiv1_symm_val dot_S128x2048_S1024x2048_S128x1024_1_1_0_0_n_n 2048 rfl rfl d
  have el : dot_S128x2048_S1024x2048_S128x1024_1_1_0_0_n_n.lhsIdx (ix2 p k) ((contrEquiv1 dot_S128x2048_S1024x2048_S128x1024_1_1_0_0_n_n 2048 rfl rfl).symm d) = ix2 p d := funext fun a => Fin.ext (by
    match a with
    | ⟨0, _⟩ => exact lhs_cos_0 _ _
    | ⟨1, _⟩ => exact (lhs_cos_1 _ _).trans hk)
  have er : dot_S128x2048_S1024x2048_S128x1024_1_1_0_0_n_n.rhsIdx (ix2 p k) ((contrEquiv1 dot_S128x2048_S1024x2048_S128x1024_1_1_0_0_n_n 2048 rfl rfl).symm d) = ix2 k d := funext fun a => Fin.ext (by
    match a with
    | ⟨0, _⟩ => exact rhs_cos_0 _ _
    | ⟨1, _⟩ => exact (rhs_cos_1 _ _).trans hk)
  rw [el, er]

/-- The cosine product at `(p, k)`, its right operand the support block divided row by row by a column `N` that holds
    each row's stabilised norm: the dot product of query row `p` with unit support row `k`. -/
theorem cos_apply (x0 : FVec Ideal S128x2048 .f32) (x1 : FVec Ideal S1024x2048 .f32) (N : FVec Ideal S1024x1 .f32)
    (hN : ∀ (k : Fin 1024), N (ix2 k (0 : Fin 1)) = nrm (fun d => x1 (ix2 k d)))
    (h0 h1 : FTy.bits .bf16 < FTy.bits .f32) (hb : S1024x1.Broadcasts S1024x2048) (p : Fin 128) (k : Fin 1024) :
    matmul dot_S128x2048_S1024x2048_S128x1024_1_1_0_0_n_n none (truncf .bf16 x0 h0)
        (truncf .bf16 (divf x1 (broadcastTo S1024x2048 N hb)) h1) (constant S128x1024 .f32 0x00000000#32) (ix2 p k)
      = cosdot (fun d => x0 (ix2 p d)) (fun d => x1 (ix2 k d)) := by
  refine (matmul_cos_apply _ _ p k).trans ?_
  unfold cosdot
  refine Finset.sum_congr rfl fun d _ => ?_
  show x0 (ix2 p d) * Ideal.div (x1 (ix2 k d)) (broadcastTo S1024x2048 N hb (ix2 k d)) = _
  rw [broadcastTo_a1_ab_apply, hN]

/-! ## The score -/

/-- `(|M| · M) / n` at `(p, k)`, the divisor a column spread over the tile's rows. -/
theorem score_apply (M : FVec Ideal S128x1024 .f32) (Nx : FVec Ideal S128x1 .f32)
    (hb : S128x1.Broadcasts S128x1024) (h : FTy.bits .bf16 < FTy.bits .f32) (p : Fin 128) (k : Fin 1024)
    (o n : EReal) (hM : M (ix2 p k) = o) (hNx : Nx (ix2 p (0 : Fin 1)) = n) :
    truncf .bf16 (divf (mulf (absf M) M) (broadcastTo S128x1024 Nx hb)) h (ix2 p k) = Ideal.div (max o (-o) * o) n := by
  show Ideal.div (max (M (ix2 p k)) (-(M (ix2 p k))) * M (ix2 p k)) (broadcastTo S128x1024 Nx hb (ix2 p k)) = _
  rw [broadcastTo_a1_ab_apply, hM, hNx]

/-! ## The one-hot matrix of a tile's labels -/

/-- Entry `(k, q)` of "class index equals label", widened and converted: the one-hot entry of label `k` at class `q`. -/
theorem onehot_apply (x2 : IVec S1024 32) (hi : S1024x1000.Iotas .tc 32 [1]) (hc : S1024.ShapeCasts S1024x1)
    (hb : S1024x1.Broadcasts S1024x1000) (hw : 1 < 32) (h : FTy.bits .bf16 < FTy.bits .f32) (k : Fin 1024) (q : Fin 1000) :
    truncf .bf16 (sitofp (F := Ideal) .f32 (extui 32 (cmpi .eq (iota .tc S1024x1000 32 [1] hi)
        (broadcastTo S1024x1000 (shapeCast S1024x1 x2 hc) hb)) hw)) h (ix2 k q) = hot (x2 (ix1 k)) q := by
  show ((((IntOp.cmpi .eq (iota .tc S1024x1000 32 [1] hi (ix2 k q))
      (broadcastTo S1024x1000 (shapeCast S1024x1 x2 hc) hb (ix2 k q))).setWidth 32).toInt : ℝ) : EReal) = _
  rw [broadcastTo_a1_ab_apply, shapeCast_a_a1_apply]
  have hq : iota .tc S1024x1000 32 [1] hi (ix2 k q) = BitVec.ofNat 32 q.val := by
    show BitVec.ofNat 32 (0 * 1000 + q.val) = _
    rw [Nat.zero_mul, Nat.zero_add]
  rw [hq]
  exact hot_of_signed _ _

/-! ## The label aggregation: scores times one-hot, contracting the tile's rows -/

theorem lhs_agg_0 (i : S128x1000.Idx) (q : dot_S128x1024_S1024x1000_S128x1000_1_0_0_1_n_n.contr.Idx) :
    (dot_S128x1024_S1024x1000_S128x1000_1_0_0_1_n_n.lhsIdx i q 0).val = (i 0).val := by
  rfl
theorem lhs_agg_1 (i : S128x1000.Idx) (q : dot_S128x1024_S1024x1000_S128x1000_1_0_0_1_n_n.contr.Idx) :
    (dot_S128x1024_S1024x1000_S128x1000_1_0_0_1_n_n.lhsIdx i q 1).val = (q ⟨0, by decide⟩).val :=
  dot_S128x1024_S1024x1000_S128x1000_1_0_0_1_n_n.lhsIdx_val_of_single rfl i q
theorem rhs_agg_0 (i : S128x1000.Idx) (q : dot_S128x1024_S1024x1000_S128x1000_1_0_0_1_n_n.contr.Idx) :
    (dot_S128x1024_S1024x1000_S128x1000_1_0_0_1_n_n.rhsIdx i q 0).val = (q ⟨0, by decide⟩).val :=
  dot_S128x1024_S1024x1000_S128x1000_1_0_0_1_n_n.rhsIdx_val_of_single rfl i q
theorem rhs_agg_1 (i : S128x1000.Idx) (q : dot_S128x1024_S1024x1000_S128x1000_1_0_0_1_n_n.contr.Idx) :
    (dot_S128x1024_S1024x1000_S128x1000_1_0_0_1_n_n.rhsIdx i q 1).val = (i 1).val := by
  rfl

/-- Entry `(p, q)` of the product of a `[128, 1024]` block with a `[1024, 1000]` block from a zero accumulator: the sum
    over the tile's rows `k` of entry `(p, k)` times entry `(k, q)`. -/
theorem matmul_agg_apply (l : FVec Ideal S128x1024 .bf16) (r : FVec Ideal S1024x1000 .bf16) (p : Fin 128) (q : Fin 1000) :
    matmul dot_S128x1024_S1024x1000_S128x1000_1_0_0_1_n_n none l r (constant S128x1000 .f32 0x00000000#32) (ix2 p q)
      = ∑ k : Fin 1024, l (ix2 p k) * r (ix2 k q) := by
  simp only [matmul]
  rw [Ideal.matmul_constant_zero_apply, ← Equiv.sum_comp (contrEquiv1 dot_S128x1024_S1024x1000_S128x1000_1_0_0_1_n_n 1024 rfl rfl).symm]
  refine Finset.sum_congr rfl fun k _ => ?_
  have hk := contrEquiv1_symm_val dot_S128x1024_S1024x1000_S128x1000_1_0_0_1_n_n 1024 rfl rfl k
  have el : dot_S128x1024_S1024x1000_S128x1000_1_0_0_1_n_n.lhsIdx (ix2 p q) ((contrEquiv1 dot_S128x1024_S1024x1000_S128x1000_1_0_0_1_n_n 1024 rfl rfl).symm k) = ix2 p k := funext fun a => Fin.ext (by
    match a with
    | ⟨0, _⟩ => exact lhs_agg_0 _ _
    | ⟨1, _⟩ => exact (lhs_agg_1 _ _).trans hk)
  have er : dot_S128x1024_S1024x1000_S128x1000_1_0_0_1_n_n.rhsIdx (ix2 p q) ((contrEquiv1 dot_S128x1024_S1024x1000_S128x1000_1_0_0_1_n_n 1024 rfl rfl).symm k) = ix2 k q := funext fun a => Fin.ext (by
    match a with
    | ⟨0, _⟩ => exact (rhs_agg_0 _ _).trans hk
    | ⟨1, _⟩ => exact rhs_agg_1 _ _)
  rw [el, er]

/-! ## The tile -/

/-- The reset value of the output block is zero at every entry. -/
theorem zeros_apply (i : S128x1000.Idx) : k0_pay1 (F := Ideal) i = 0 := by
  show Ideal.ofBits .f32 0x00000000#32 = 0
  exact Ideal.ofBits_zero_f32

/-- WHAT A POINT LEAVES at entry `(p, q)` of the output block: the old entry plus the tile's sum of score × one-hot. -/
theorem tile_apply (x1 : FVec Ideal S1024x2048 .f32) (x0 : FVec Ideal S128x2048 .f32) (x2 : IVec S1024 32)
    (acc : FVec Ideal S128x1000 .f32) (p : Fin 128) (q : Fin 1000) :
    k0_pay2 (F := Ideal) x1 x0 x2 acc (ix2 p q)
      = acc (ix2 p q) + ∑ k : Fin 1024, scoreLate (fun d => x0 (ix2 p d)) (fun d => x1 (ix2 k d)) * hot (x2 (ix1 k)) q := by
  unfold k0_pay2
  dsimp only
  refine (addf_apply _ _ _).trans ?_
  refine congrArg₂ (· + ·) (congrFun (shapeCast_self acc _) _) ?_
  refine (matmul_agg_apply _ _ p q).trans ?_
  refine Finset.sum_congr rfl fun k _ => congrArg₂ (· * ·) ?_ (onehot_apply x2 _ _ _ _ _ k q)
  exact score_apply _ _ _ _ p k _ _
    (cos_apply x0 x1 _ (fun k' => normcol_apply x1 _ _ _ _ k' 0) _ _ _ p k)
    (normcol_apply x0 _ _ _ _ p 0)

end Cert.KernelIdeal.Tile

end
-- ==== Proof.Fold.lean ====
/-
  The kernel computes the specification. The grid is 4 query blocks × 16 support tiles, the support tile running
  fastest, and the output block of a query block stays in place over its 16 tiles: zeroed before the first, each tile
  adding its contribution. Point `n` holds query rows `128·(n / 16) + p`, support rows `1024·(n mod 16) + k` and their
  labels. So after a query block's last tile, entry `(p, q)` of the output block is the sum over the 16 tiles, and within
  each over its 1024 rows, of score × one-hot — the sum over all 16384 support rows, regrouped — for query row
  `b = 128·(b / 128) + b mod 128`. The score there has the quotient taken last; the specification's takes it first; they
  are one value.
-/
import proofs.«142447_j87368224735692_1_alg».proof.Proof.Gen.KernelIdeal.Value
import proofs.«142447_j87368224735692_1_alg».proof.Proof.Tile
import proofs.«142447_j87368224735692_1_alg».proof.Proof.Spec

noncomputable section

open scoped BigOperators

namespace Cert.KernelIdeal.Fold

open Cert.KernelIdeal Cert.KernelIdeal.Gen Cert.KernelIdeal.Value Cert.KernelIdeal.Tile Cert.Cosine
open Idealize.ShloMosaic Idealize.ShloMosaic.ValueIdx Idealize.ShloMosaic.TcCoe Idealize.SL.Sem

variable (m : (ℓ : Loc nD τ sig) → Buf (Elt Ideal) ℓ)

/-! ## The arrays and the blocks, at their literal types -/

/-- The query array as the region finds it. -/
abbrev xarr (c : Dev nD) : FVec Ideal S512x2048 .f32 := V m c main_arg0
/-- The support array as the region finds it. -/
abbrev sxarr (c : Dev nD) : FVec Ideal S16384x2048 .f32 := V m c main_arg1
/-- The labels as the region finds them. -/
abbrev syarr (c : Dev nD) : IVec S16384 32 := V m c main_arg2

/-- The query block at a point. -/
abbrev xblk (c : Dev nD) (t : Fin cfg0.N) : FVec Ideal S128x2048 .f32 := iblk m c 0 t
/-- The support tile at a point. -/
abbrev sxblk (c : Dev nD) (t : Fin cfg0.N) : FVec Ideal S1024x2048 .f32 := iblk m c 1 t
/-- The tile's labels at a point. -/
abbrev syblk (c : Dev nD) (t : Fin cfg0.N) : IVec S1024 32 := iblk m c 2 t

/-- Row `r` of the query array (zero past the array, where it is never used). -/
def xrow (c : Dev nD) (r : ℕ) : Fin 2048 → EReal := fun d => if h : r < 512 then xarr m c (ix2 ⟨r, h⟩ d) else 0
/-- Row `r` of the support array (zero past the array). -/
def sxrow (c : Dev nD) (r : ℕ) : Fin 2048 → EReal := fun d => if h : r < 16384 then sxarr m c (ix2 ⟨r, h⟩ d) else 0
/-- Label `r` (the zero word past the array). -/
def sylab (c : Dev nD) (r : ℕ) : BitVec 32 := if h : r < 16384 then syarr m c (ix1 ⟨r, h⟩) else 0

/-! ## Which rows a point holds -/

/-- The query block index is the point's slow coordinate, on whole rows. -/
theorem idx_query : ∀ t : Fin cfg0.N, win0_0.index t (0 : Fin 2) = t.val / 16 ∧ win0_0.index t (1 : Fin 2) = 0 :=
  (by decide +kernel : ∀ t : Fin grid0.N, _)
/-- The support tile index is the point's fast coordinate, on whole rows. -/
theorem idx_support : ∀ t : Fin cfg0.N, win0_1.index t (0 : Fin 2) = t.val % 16 ∧ win0_1.index t (1 : Fin 2) = 0 :=
  (by decide +kernel : ∀ t : Fin grid0.N, _)
/-- The label tile index is the point's fast coordinate. -/
theorem idx_labels : ∀ t : Fin cfg0.N, win0_2.index t (0 : Fin 1) = t.val % 16 :=
  (by decide +kernel : ∀ t : Fin grid0.N, _)

/-- Row `p` of the query block at point `t` is row `128·(t / 16) + p` of the query array. -/
theorem xrow_blk (c : Dev nD) (t : Fin cfg0.N) (p : Fin 128) :
    (fun d => xblk m c t (ix2 p d)) = xrow m c (128 * (t.val / 16) + p.val) := by
  have hN : t.val < 64 := lt_of_lt_of_eq t.isLt N_0
  have hp := p.isLt
  have hr : 128 * (t.val / 16) + p.val < 512 := by omega
  obtain ⟨e0, e1⟩ := idx_query t
  funext d
  unfold xrow
  rw [dif_pos hr]
  show V m c main_arg0 (((cfg0.win 0).blk t).view.emb (ix2 p d)) = V m c main_arg0 (ix2 ⟨128 * (t.val / 16) + p.val, hr⟩ d)
  refine congrArg _ (funext fun a => Fin.ext ?_)
  match a with
  | ⟨0, _⟩ => show win0_0.index t (0 : Fin 2) * 128 + 1 * p.val = 128 * (t.val / 16) + p.val; omega
  | ⟨1, _⟩ => show win0_0.index t (1 : Fin 2) * 2048 + 1 * d.val = d.val; omega

/-- Row `k` of the support tile at point `t` is row `1024·(t mod 16) + k` of the support array. -/
theorem sxrow_blk (c : Dev nD) (t : Fin cfg0.N) (k : Fin 1024) :
    (fun d => sxblk m c t (ix2 k d)) = sxrow m c (1024 * (t.val % 16) + k.val) := by
  have hk := k.isLt
  have hr : 1024 * (t.val % 16) + k.val < 16384 := by omega
  obtain ⟨e0, e1⟩ := idx_support t
  funext d
  unfold sxrow
  rw [dif_pos hr]
  show V m c main_arg1 (((cfg0.win 1).blk t).view.emb (ix2 k d)) = V m c main_arg1 (ix2 ⟨1024 * (t.val % 16) + k.val, hr⟩ d)
  refine congrArg _ (funext fun a => Fin.ext ?_)
  match a with
  | ⟨0, _⟩ => show win0_1.index t (0 : Fin 2) * 1024 + 1 * k.val = 1024 * (t.val % 16) + k.val; omega
  | ⟨1, _⟩ => show win0_1.index t (1 : Fin 2) * 2048 + 1 * d.val = d.val; omega

/-- Label `k` of the tile at point `t` is label `1024·(t mod 16) + k`. -/
theorem sylab_blk (c : Dev nD) (t : Fin cfg0.N) (k : Fin 1024) :
    syblk m c t (ix1 k) = sylab m c (1024 * (t.val % 16) + k.val) := by
  have hk := k.isLt
  have hr : 1024 * (t.val % 16) + k.val < 16384 := by omega
  have e0 := idx_labels t
  unfold sylab
  rw [dif_pos hr]
  show V m c main_arg2 (((cfg0.win 2).blk t).view.emb (ix1 k)) = V m c main_arg2 (ix1 ⟨1024 * (t.val % 16) + k.val, hr⟩)
  refine congrArg _ (funext fun a => Fin.ext ?_)
  match a with
  | ⟨0, _⟩ => show win0_2.index t (0 : Fin 1) * 1024 + 1 * k.val = 1024 * (t.val % 16) + k.val; omega

/-! ## A point's contribution, and the fold over a query block's sixteen tiles -/

/-- What point `n` adds to entry `i` of the output block: the sum over its tile's rows of score × one-hot. -/
def contrib (c : Dev nD) (n : ℕ) (i : S128x1000.Idx) : EReal :=
  ∑ k : Fin 1024, scoreLate (xrow m c (128 * (n / 16) + (i 0).val)) (sxrow m c (1024 * (n % 16) + k.val))
    * hot (sylab m c (1024 * (n % 16) + k.val)) ⟨(i 1).val, idx2_lt1 i⟩

/-- What point `n` leaves in the output block over what it found there: the old entry plus the point's contribution. -/
theorem point_apply (c : Dev nD) (n : ℕ) (h : n < cfg0.N) (acc : FVec Ideal S128x1000 .f32) (i : S128x1000.Idx) :
    k0_pay2 (F := Ideal) (sxblk m c ⟨n, h⟩) (xblk m c ⟨n, h⟩) (syblk m c ⟨n, h⟩) acc i = acc i + contrib m c n i := by
  obtain ⟨p, q, rfl⟩ : ∃ (p : Fin 128) (q : Fin 1000), i = ix2 p q := ⟨i 0, i 1, eq_ix2 i⟩
  refine (tile_apply (sxblk m c ⟨n, h⟩) (xblk m c ⟨n, h⟩) (syblk m c ⟨n, h⟩) acc p q).trans ?_
  refine congrArg (acc (ix2 p q) + ·) ?_
  unfold contrib
  refine Finset.sum_congr rfl fun k _ => ?_
  exact congrArg₂ (· * ·) (congrArg₂ scoreLate (xrow_blk m c ⟨n, h⟩ p) (sxrow_blk m c ⟨n, h⟩ k))
    (congrArg (fun l => hot l q) (sylab_blk m c ⟨n, h⟩ k))

/-- THE KERNEL'S RESULT at entry `(b, q)` is the specification's. -/
theorem kernel_apply (c : Dev nD) (b : Fin 512) (q : Fin 1000) :
    G3 m c (ix2 b q) = spec (xarr m c) (sxarr m c) (syarr m c) b q := by
  have hN : cfg0.N = 64 := N_0
  have hb := b.isLt
  have hq := q.isLt
  have hrun : run3Of (ix2 b q) = b.val / 128 := by
    show 1 * (b.val / 128 - 0) + 1 * (q.val / 1000 - 0) = _
    omega
  have hlt : 16 * run3Of (ix2 b q) + 15 < cfg0.N := by rw [hrun, hN]; omega
  unfold G3
  rw [dif_pos hlt]
  rw [Pipeline.accAt_add_apply (ι := S128x1000.Idx) (β := EReal) (reset3 m c) (step3 m c) (fun _ => 0) (contrib m c)
    (16 * run3Of (ix2 b q)) 15
    (fun h i => by
      show k0_pay2 (F := Ideal) (sxblk m c ⟨_, h⟩) (xblk m c ⟨_, h⟩) (syblk m c ⟨_, h⟩) (k0_pay1 (F := Ideal)) i = _
      rw [point_apply, zeros_apply])
    (fun n h acc i _ _ => point_apply m c n h acc i) 15 le_rfl hlt (loc3Of (ix2 b q))]
  rw [zero_add, hrun]
  unfold spec
  have hspec : ∀ t : Fin 16384,
      scoreEarly (fun d => xarr m c (ix2 b d)) (fun d => sxarr m c (ix2 t d)) * hot (syarr m c (ix1 t)) q
        = (fun n => scoreEarly (xrow m c b.val) (sxrow m c n) * hot (sylab m c n) q) t.val := by
    intro t
    have e1 : xrow m c b.val = fun d => xarr m c (ix2 b d) := by funext d; unfold xrow; rw [dif_pos hb]
    have e2 : sxrow m c t.val = fun d => sxarr m c (ix2 t d) := by funext d; unfold sxrow; rw [dif_pos t.isLt]
    have e3 : sylab m c t.val = syarr m c (ix1 t) := by unfold sylab; rw [dif_pos t.isLt]
    show _ = scoreEarly (xrow m c b.val) (sxrow m c t.val) * hot (sylab m c t.val) q
    rw [e1, e2, e3]
  rw [Finset.sum_congr rfl fun t _ => hspec t]
  refine Eq.trans ?_ (sum_tiles fun n => scoreEarly (xrow m c b.val) (sxrow m c n) * hot (sylab m c n) q)
  show ∑ s ∈ Finset.range 16, contrib m c (16 * (b.val / 128) + s) (loc3Of (ix2 b q)) = _
  refine Finset.sum_congr rfl fun s hs => ?_
  have hs' : s < 16 := Finset.mem_range.mp hs
  unfold contrib
  refine Finset.sum_congr rfl fun k _ => ?_
  have hk := k.isLt
  have a1 : 128 * ((16 * (b.val / 128) + s) / 16) + ((loc3Of (ix2 b q)) 0).val = b.val := by
    show 128 * ((16 * (b.val / 128) + s) / 16) + b.val % 128 = b.val
    omega
  have a2 : (16 * (b.val / 128) + s) % 16 = s := by omega
  have a3 : (⟨((loc3Of (ix2 b q)) 1).val, idx2_lt1 (loc3Of (ix2 b q))⟩ : Fin 1000) = q :=
    Fin.ext (by show q.val % 1000 = q.val; omega)
  rw [a1, a2, a3, scoreLate_eq_scoreEarly]

end Cert.KernelIdeal.Fold

end
-- ==== Proof.lean ====
/-
  A retrieval classifier: each of 512 query rows is scored against each of 16384 support rows, and the scores vote for
  the support rows' labels. With `n(r) = √(Σ_d r_d²) + ε` the stabilised norm of a row of 2048 features, the score of
  query row `x` against support row `s` is `|o| · o / n(x)` where `o = Σ_d x_d · (s_d / n(s))` is the dot product of
  the query with the (nearly) unit support row — a cosine similarity sharpened by its own magnitude —, and the result
  at `(b, c)` is the sum of the scores of query row `b` over the support rows whose label is `c`, written as the sum over
  all support rows of score × one-hot.

  The tiled program visits the support rows sixteen tiles of 1024 at a time for each block of 128 query rows, keeping
  the output block in place: zero before the first tile, each tile adding its partial sum. The plain program forms all
  512 × 16384 scores and takes one product with the 16384 × 1000 one-hot matrix. Over the extended reals sums regroup
  freely, so sixteen partial sums of 1024 terms are the one sum of 16384. The two programs also place the quotient
  differently, `(|o| · o) / n` against `(|o| / n) · o`: off zero a quotient is a product with the inverse, products
  commute and associate, and `n = √y + ε` is never zero (a root is `⊥` or non-negative, and `ε > 0`), so these agree on
  every input, finite or not. Rounding to a narrower float format is the identity on extended reals, and a comparison
  bit read as a signed or as an unsigned number is the same 0 or 1. The three frame claims are the programs' runs with
  the results dropped; no rewrite was applied in idealizing the tiled program, so that claim is trivial.
-/
import proofs.«142447_j87368224735692_1_alg».proof.Defs
import proofs.«142447_j87368224735692_1_alg».proof.Proof.Gen.Kernel.Frame
import proofs.«142447_j87368224735692_1_alg».proof.Proof.Gen.KernelIdeal.Value
import proofs.«142447_j87368224735692_1_alg».proof.Proof.Gen.Pre_finite_inputs
import proofs.«142447_j87368224735692_1_alg».proof.Proof.Gen.ReferenceIdeal.Run
import proofs.«142447_j87368224735692_1_alg».proof.Proof.Gen.ReferenceIdeal.Read
import proofs.«142447_j87368224735692_1_alg».proof.Proof.RefIsSpec
import proofs.«142447_j87368224735692_1_alg».proof.Proof.Fold
import Idealize.ShloMosaic.Adequacy
import Idealize.ShloMosaic.Init

noncomputable section

namespace Cert.Proof

open Idealize.ShloMosaic Idealize.SL.Sem

/-- The tiled program at the extended reals runs and keeps its arguments: its value run with the result dropped. -/
theorem frame_KernelIdeal : frame_KernelIdeal := fun m ρ _ =>
  (θ_run Cert.KernelIdeal.defs _ _).mono (fun _ h c => (h c).2) (Cert.KernelIdeal.Value.run (F := Ideal) m ρ)

/-- The plain program runs and keeps its arguments: its run with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments both programs end with the same result array: the tiled program's
    is the fold of its sixteen tiles per query block, the plain program's its composed term, and entry by entry both are
    the specification's sum over the 16384 support rows. -/
theorem algebraic_KernelIdeal_ReferenceIdeal : algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  refine (Cert.ReferenceIdeal.Read.val_main_v14_eq _ _ _).trans ?_
  rw [(hagree c).1, (hagree c).2.1, (hagree c).2.2]
  funext i
  obtain ⟨b, q, rfl⟩ : ∃ (b : Fin 512) (q : Fin 1000), i = ValueIdx.ix2 b q := ⟨i 0, i 1, ValueIdx.eq_ix2 i⟩
  exact (Cert.ReferenceIdeal.RefValue.ref_apply _ _ _ b q).trans (Cert.KernelIdeal.Fold.kernel_apply m c b q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
